-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x2048 .f32) (main_arg1 : FVec F S16384x2048 .f32) (main_arg2 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x2048 : Shape := ⟨2, ![16384, 2048]⟩
abbrev S2048 : Shape := ⟨1, ![2048]⟩
abbrev S1x2048 : Shape := ⟨2, ![1, 2048]⟩
abbrev S2x16384x2048 : Shape := ⟨3, ![2, 16384, 2048]⟩
abbrev S256x2048 : Shape := ⟨2, ![256, 2048]⟩
abbrev S2x256x2048 : Shape := ⟨3, ![2, 256, 2048]⟩
abbrev S1x256x2048 : Shape := ⟨3, ![1, 256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S1x2048, .f32⟩
  | .hbm, ⟨4, _⟩ => ⟨S2x16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2x256x2048, .f32⟩
  | .local _ .vmem, ⟨6, _⟩ => ⟨S2x256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2x256x2048_S1x256x2048_0_0_0 : ∀ a, (![0, 0, 0] : Fin 3 → Nat) a + S1x256x2048.size a ≤ S2x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S2x256x2048_S1x256x2048_1_0_0 : ∀ a, (![1, 0, 0] : Fin 3 → Nat) a + S1x256x2048.size a ≤ S2x256x2048.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S16384x2048.size a
  hwx0_1 : ∀ i : grid0.Coords, EltTy.bits .f32 = 32 ∨ (Rect.block (s := S16384x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x2048.size a ≤ S2x16384x2048.size a
  hwx0_3 : ∀ i : grid0.Coords, EltTy.bits .f32 = 32 ∨ (Rect.block (s := S2x16384x2048) S2x256x2048.size (cc0_transform_3 i) (hinb0_3 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2x256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048 : Shape := ⟨1, ![2048]⟩
abbrev S1x2048 : Shape := ⟨2, ![1, 2048]⟩
abbrev S1x16384x2048 : Shape := ⟨3, ![1, 16384, 2048]⟩
abbrev S2x16384x2048 : Shape := ⟨3, ![2, 16384, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S16384x2048, .f32⟩
  | .hbm, ⟨7, _⟩ => ⟨S16384x2048, .f32⟩
  | .hbm, ⟨8, _⟩ => ⟨S1x2048, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S1x16384x2048, .f32⟩
  | .hbm, ⟨20, _⟩ => ⟨S1x16384x2048, .f32⟩
  | .hbm, ⟨21, _⟩ => ⟨S2x16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S16384x2048_S1x16384x2048_1_2 : S16384x2048.BroadcastsInDim S1x16384x2048 (![1, 2] : Fin 2 → Fin S1x16384x2048.rank)
  concatenates_S1x16384x2048_S1x16384x2048_S2x16384x2048_d0 : Shape.Concatenates [S1x16384x2048, S1x16384x2048] S2x16384x2048 0

variable [Facts₀]

class Facts : Prop extends Facts₀ where

variable [Facts]
-- ==== Proof.Rotation.lean ====
/-
  The phase rotation as ONE function of the argument arrays.

  A complex array `xr + i·xi` of 16384 rows and 2048 columns is multiplied, column by column, by the unit complex number
  `cos p + i·sin p` of that column's phase `p`.  The result is stored as two real planes: plane 0 holds the real part
  `xr·cos p − xi·sin p`, plane 1 the imaginary part `xr·sin p + xi·cos p`.  Entry `(h, r, k)` therefore depends on the two
  input entries `(r, k)` and on the phase of column `k` only.

  Nothing here needs the inputs to be finite: both programs form the same two products and the same sum or difference, in
  the same order, so the two sides are equal as extended reals term by term, with no algebraic law in between.
-/
import Idealize.ShloMosaic.PureOps.Ideal
import Idealize.ShloMosaic.Lib.ValueIdx

noncomputable section

namespace Cert.Rotation

open Idealize.ShloMosaic Idealize.ShloMosaic.ValueIdx

/-- The two-plane array of shape [2, 16384, 2048]. -/
abbrev Planes : Shape := ⟨3, ![2, 16384, 2048]⟩
/-- One real matrix of shape [16384, 2048]. -/
abbrev Mat : Shape := ⟨2, ![16384, 2048]⟩
/-- The phase vector of shape [2048]. -/
abbrev Phases : Shape := ⟨1, ![2048]⟩

/-- The real part of `(a + i·b)·(cos p + i·sin p)`. -/
def re (a b p : EReal) : EReal := a * Ideal.cos p - b * Ideal.sin p
/-- The imaginary part of `(a + i·b)·(cos p + i·sin p)`. -/
def im (a b p : EReal) : EReal := a * Ideal.sin p + b * Ideal.cos p

/-- Entry `(h, r, k)` of the rotated array: the real part on plane 0, the imaginary part on plane 1, of the rotation of
    `xr (r, k) + i·xi (r, k)` by the phase of column `k`. -/
def rotated (xr xi : Mat.Idx → EReal) (ph : Phases.Idx → EReal) : Planes.Idx → EReal := fun i =>
  if (i 0).val = 0 then re (xr (ix2 (i 1) (i 2))) (xi (ix2 (i 1) (i 2))) (ph (ix1 (i 2)))
  else im (xr (ix2 (i 1) (i 2))) (xi (ix2 (i 1) (i 2))) (ph (ix1 (i 2)))

theorem rotated_plane0 (xr xi : Mat.Idx → EReal) (ph : Phases.Idx → EReal) (r : Fin 16384) (k : Fin 2048) :
    rotated xr xi ph (ix3 (0 : Fin 2) r k) = re (xr (ix2 r k)) (xi (ix2 r k)) (ph (ix1 k)) :=
  if_pos rfl

theorem rotated_plane1 (xr xi : Mat.Idx → EReal) (ph : Phases.Idx → EReal) (r : Fin 16384) (k : Fin 2048) :
    rotated xr xi ph (ix3 (1 : Fin 2) r k) = im (xr (ix2 r k)) (xi (ix2 r k)) (ph (ix1 k)) :=
  if_neg (show ¬ ((1 : Fin 2).val = 0) by decide)

/-- Any index of the two-plane array on plane 0, with row `r` and column `k`, reads the real part. -/
theorem rotated_of_plane0 (xr xi : Mat.Idx → EReal) (ph : Phases.Idx → EReal) (i : Planes.Idx) (r : Fin 16384) (k : Fin 2048)
    (h0 : (i 0).val = 0) (h1 : (i 1).val = r.val) (h2 : (i 2).val = k.val) :
    rotated xr xi ph i = re (xr (ix2 r k)) (xi (ix2 r k)) (ph (ix1 k)) := by
  have e : i = ix3 (0 : Fin 2) r k := funext fun d => by
    match d with
    | ⟨0, _⟩ => exact Fin.ext h0
    | ⟨1, _⟩ => exact Fin.ext h1
    | ⟨2, _⟩ => exact Fin.ext h2
  rw [e]; exact rotated_plane0 xr xi ph r k

/-- Any index on plane 1, with row `r` and column `k`, reads the imaginary part. -/
theorem rotated_of_plane1 (xr xi : Mat.Idx → EReal) (ph : Phases.Idx → EReal) (i : Planes.Idx) (r : Fin 16384) (k : Fin 2048)
    (h0 : (i 0).val = 1) (h1 : (i 1).val = r.val) (h2 : (i 2).val = k.val) :
    rotated xr xi ph i = im (xr (ix2 r k)) (xi (ix2 r k)) (ph (ix1 k)) := by
  have e : i = ix3 (1 : Fin 2) r k := funext fun d => by
    match d with
    | ⟨0, _⟩ => exact Fin.ext h0
    | ⟨1, _⟩ => exact Fin.ext h1
    | ⟨2, _⟩ => exact Fin.ext h2
  rw [e]; exact rotated_plane1 xr xi ph r k

/-! ## One block of 256 rows

The kernel works on 256 rows at a time: from the two input blocks of shape [256, 2048] and the phases laid out as one row
[1, 2048] it fills a block [2, 256, 2048] of the result.  The block is the same rotation, with the block's own row number. -/

/-- A block of the two-plane array: [2, 256, 2048]. -/
abbrev BlockPlanes : Shape := ⟨3, ![2, 256, 2048]⟩
/-- A block of 256 rows of one matrix: [256, 2048]. -/
abbrev BlockMat : Shape := ⟨2, ![256, 2048]⟩
/-- The phases as a single row: [1, 2048]. -/
abbrev PhaseRow : Shape := ⟨2, ![1, 2048]⟩

/-- Entry `(h, r, k)` of the rotated block, from the input blocks' entries `(r, k)` and the phase row's entry `(0, k)`. -/
def rotatedBlock (a b : BlockMat.Idx → EReal) (p : PhaseRow.Idx → EReal) : BlockPlanes.Idx → EReal := fun y =>
  if (y 0).val = 0 then re (a (ix2 (y 1) (y 2))) (b (ix2 (y 1) (y 2))) (p (ix2 (0 : Fin 1) (y 2)))
  else im (a (ix2 (y 1) (y 2))) (b (ix2 (y 1) (y 2))) (p (ix2 (0 : Fin 1) (y 2)))

theorem rotatedBlock_of_plane0 (a b : BlockMat.Idx → EReal) (p : PhaseRow.Idx → EReal) (y : BlockPlanes.Idx) (r : Fin 256) (k : Fin 2048)
    (h0 : (y 0).val = 0) (h1 : (y 1).val = r.val) (h2 : (y 2).val = k.val) :
    rotatedBlock a b p y = re (a (ix2 r k)) (b (ix2 r k)) (p (ix2 (0 : Fin 1) k)) := by
  have e : y = ix3 (0 : Fin 2) r k := funext fun d => by
    match d with
    | ⟨0, _⟩ => exact Fin.ext h0
    | ⟨1, _⟩ => exact Fin.ext h1
    | ⟨2, _⟩ => exact Fin.ext h2
  rw [e]; exact if_pos rfl

theorem rotatedBlock_of_plane1 (a b : BlockMat.Idx → EReal) (p : PhaseRow.Idx → EReal) (y : BlockPlanes.Idx) (r : Fin 256) (k : Fin 2048)
    (h0 : (y 0).val = 1) (h1 : (y 1).val = r.val) (h2 : (y 2).val = k.val) :
    rotatedBlock a b p y = im (a (ix2 r k)) (b (ix2 r k)) (p (ix2 (0 : Fin 1) k)) := by
  have e : y = ix3 (1 : Fin 2) r k := funext fun d => by
    match d with
    | ⟨0, _⟩ => exact Fin.ext h0
    | ⟨1, _⟩ => exact Fin.ext h1
    | ⟨2, _⟩ => exact Fin.ext h2
  rw [e]; exact if_neg (show ¬ ((1 : Fin 2).val = 0) by decide)

end Cert.Rotation

end
-- ==== Proof.KernelBlock.lean ====
/-
  What the kernel body leaves in its output block.

  The body loads the two input blocks whole and the phase row whole, takes the cosine and the sine of the row, spreads each
  down the 256 rows, and stores `xr·cos − xi·sin` into plane 0 and `xr·sin + xi·cos` into plane 1 of the output block.  Each
  store's value is reshaped from [256, 2048] to [1, 256, 2048], which only adds a unit axis in front: entry `(0, r, k)` of the
  stored value is entry `(r, k)` of the computed one.  The two stores tile the block, one plane each, so the block ends
  holding the rotation of the input blocks, entry by entry.
-/
import proofs.«157291_j24653112279144_1_alg».proof.Proof.Gen.KernelIdeal.Frame
import proofs.«157291_j24653112279144_1_alg».proof.Proof.Rotation
import Idealize.ShloMosaic.Lib.Pipeline.Value
import Idealize.ShloMosaic.Lib.ValueIdx

set_option maxRecDepth 16384

noncomputable section

namespace Cert.Rotation.Body

open Cert.KernelIdeal Cert.KernelIdeal.Gen Cert.Rotation
open Idealize.ShloMosaic Idealize.ShloMosaic.ValueIdx

/-- The cosine of the phase row, entry by entry: the reshape to the same shape in front of it changes nothing. -/
theorem cosRow_apply (v2 : Vec Ideal S1x2048 .f32) (j : S1x2048.Idx) :
    k0_pay2 (F := Ideal) v2 j = Ideal.cos (v2 j) := by
  show Ideal.cos (shapeCast S1x2048 v2 shapeCasts_S1x2048_S1x2048 j) = _
  rw [shapeCast_self]

/-- The sine of the phase row, entry by entry. -/
theorem sinRow_apply (v2 : Vec Ideal S1x2048 .f32) (j : S1x2048.Idx) :
    k0_pay3 (F := Ideal) v2 j = Ideal.sin (v2 j) := by
  show Ideal.sin (shapeCast S1x2048 v2 shapeCasts_S1x2048_S1x2048 j) = _
  rw [shapeCast_self]

/-- A row `w` of shape [1, 2048] spread down 256 rows reads, at `(r, k)`, the row's entry `(0, k)`. -/
theorem spread_apply (w : FVec Ideal S1x2048 .f32) (r : Fin 256) (k : Fin 2048) :
    broadcastTo S256x2048 w broadcasts_S1x2048_S256x2048 (ix2 r k) = w (ix2 (0 : Fin 1) k) :=
  broadcastTo_apply w broadcasts_S1x2048_S256x2048 (ix2 r k) (ix2 (0 : Fin 1) k) (fun a => by
    match a with
    | ⟨0, _⟩ => show (0 : Nat) = if (1 : Nat) = 1 then 0 else r.val; rw [if_pos rfl]
    | ⟨1, _⟩ => show k.val = if (2048 : Nat) = 1 then 0 else k.val; rw [if_neg (by decide)])

/-- Dropping the unit axis in front of `(0, r, k)` leaves `(r, k)`. -/
theorem tail_ix3 (r : Fin 256) (k : Fin 2048) :
    (fun a : Fin 2 => (ix3 (0 : Fin 1) r k) a.succ) = ix2 r k := funext fun a => by
  match a with
  | ⟨0, _⟩ => rfl
  | ⟨1, _⟩ => rfl

/-- The value stored into plane 0, at `(0, r, k)`: the real part of the rotation of the loaded entries. -/
theorem stored_plane0 (v0 v1 : Vec Ideal S256x2048 .f32) (v2 : Vec Ideal S1x2048 .f32) (r : Fin 256) (k : Fin 2048) :
    k0_pay4 (F := Ideal) v0 v1 v2 (ix3 (0 : Fin 1) r k)
      = re (v0 (ix2 r k)) (v1 (ix2 r k)) (v2 (ix2 (0 : Fin 1) k)) := by
  show shapeCast S1x256x2048 (subf (mulf v0 (broadcastTo S256x2048 (k0_pay2 (F := Ideal) v2) broadcasts_S1x2048_S256x2048))
      (mulf v1 (broadcastTo S256x2048 (k0_pay3 (F := Ideal) v2) broadcasts_S1x2048_S256x2048))) shapeCasts_S256x2048_S1x256x2048 (ix3 (0 : Fin 1) r k) = _
  refine (shapeCast_addUnit_apply ![256, 2048] _ shapeCasts_S256x2048_S1x256x2048 (ix3 (0 : Fin 1) r k)).trans ?_
  rw [tail_ix3]
  show v0 (ix2 r k) * broadcastTo S256x2048 (k0_pay2 (F := Ideal) v2) broadcasts_S1x2048_S256x2048 (ix2 r k)
      - v1 (ix2 r k) * broadcastTo S256x2048 (k0_pay3 (F := Ideal) v2) broadcasts_S1x2048_S256x2048 (ix2 r k) = _
  rw [spread_apply, spread_apply, cosRow_apply, sinRow_apply]
  rfl

/-- The value stored into plane 1, at `(0, r, k)`: the imaginary part. -/
theorem stored_plane1 (v0 v1 : Vec Ideal S256x2048 .f32) (v2 : Vec Ideal S1x2048 .f32) (r : Fin 256) (k : Fin 2048) :
    k0_pay5 (F := Ideal) v0 v1 v2 (ix3 (0 : Fin 1) r k)
      = im (v0 (ix2 r k)) (v1 (ix2 r k)) (v2 (ix2 (0 : Fin 1) k)) := by
  show shapeCast S1x256x2048 (addf (mulf v0 (broadcastTo S256x2048 (k0_pay3 (F := Ideal) v2) broadcasts_S1x2048_S256x2048))
      (mulf v1 (broadcastTo S256x2048 (k0_pay2 (F := Ideal) v2) broadcasts_S1x2048_S256x2048))) shapeCasts_S256x2048_S1x256x2048 (ix3 (0 : Fin 1) r k) = _
  refine (shapeCast_addUnit_apply ![256, 2048] _ shapeCasts_S256x2048_S1x256x2048 (ix3 (0 : Fin 1) r k)).trans ?_
  rw [tail_ix3]
  show v0 (ix2 r k) * broadcastTo S256x2048 (k0_pay3 (F := Ideal) v2) broadcasts_S1x2048_S256x2048 (ix2 r k)
      + v1 (ix2 r k) * broadcastTo S256x2048 (k0_pay2 (F := Ideal) v2) broadcasts_S1x2048_S256x2048 (ix2 r k) = _
  rw [spread_apply, spread_apply, sinRow_apply, cosRow_apply]
  rfl

theorem zeros2 : (![0, 0] : Fin 2 → Nat) = fun _ => 0 := funext fun a => by
  match a with
  | ⟨0, _⟩ => rfl
  | ⟨1, _⟩ => rfl

/-- THE OUTPUT BLOCK after the body is the rotation of the input blocks by the phase row: each of the two stores holds, at
    its own index, the rotated block's entry at the place the store puts it, and the two stores cover the block. -/
theorem out_eq (x0 x1 : Vec Ideal S256x2048 .f32) (x2 : Vec Ideal S1x2048 .f32) :
    out0_3 (F := Ideal) x0 x1 x2 = rotatedBlock x0 x1 x2 := by
  funext y
  unfold out0_3
  rw [View.ld_unit_zero (S := S256x2048) zeros2, View.ld_unit_zero (S := S256x2048) zeros2, View.ld_unit_zero (S := S1x2048) zeros2]
  refine View.canon_apply_of_pieces (Val := Elt Ideal) (S := S2x256x2048) (e := .f32)
    (rotatedBlock x0 x1 x2 : S2x256x2048.Idx → Elt Ideal .f32) _ ?_ y (cover0_3 _ _ y)
  intro p hp x
  rcases List.mem_cons.mp hp with rfl | hp
  · -- the later store: plane 1
    obtain ⟨q, r, k, rfl⟩ : ∃ (q : Fin 1) (r : Fin 256) (k : Fin 2048), x = ix3 q r k := ⟨x 0, x 1, x 2, eq_ix3 x⟩
    obtain rfl : q = 0 := Subsingleton.elim _ _
    refine (stored_plane1 x0 x1 x2 r k).trans (rotatedBlock_of_plane1 x0 x1 x2 _ r k ?_ ?_ ?_).symm
    · show 1 + 1 * 0 = 1
      rfl
    · show 0 + 1 * r.val = r.val
      omega
    · show 0 + 1 * k.val = k.val
      omega
  · rcases List.mem_cons.mp hp with rfl | hp
    · -- the earlier store: plane 0
      obtain ⟨q, r, k, rfl⟩ : ∃ (q : Fin 1) (r : Fin 256) (k : Fin 2048), x = ix3 q r k := ⟨x 0, x 1, x 2, eq_ix3 x⟩
      obtain rfl : q = 0 := Subsingleton.elim _ _
      refine (stored_plane0 x0 x1 x2 r k).trans (rotatedBlock_of_plane0 x0 x1 x2 _ r k ?_ ?_ ?_).symm
      · show 0 + 1 * 0 = 0
        rfl
      · show 0 + 1 * r.val = r.val
        omega
      · show 0 + 1 * k.val = k.val
        omega
    · exact absurd hp List.not_mem_nil

end Cert.Rotation.Body

end
-- ==== Proof.KernelArray.lean ====
/-
  From the blocks to the whole array.

  The grid has 64 points.  Point `t` reads rows `256·t … 256·t + 255` of both inputs and the whole phase row, and writes back
  the block `[2, 256, 2048]` placed at rows `256·t …` of both planes.  So entry `(r, k)` inside the input blocks of point `t` is
  entry `(256·t + r, k)` of the input arrays, and entry `(h, r, k)` of the block written back is entry `(h, 256·t + r, k)` of the
  result: what the body computes from the blocks is exactly the rotation of the arrays, read through the block.  Every row lies
  in the block of point `row / 256`, so the blocks cover the result and the whole array is the rotation.

  The phase row the kernel stages is the phase vector reshaped from [2048] to [1, 2048] in front of the region; entry `(0, k)`
  of the row is entry `k` of the vector.
-/
import proofs.«157291_j24653112279144_1_alg».proof.Proof.Gen.KernelIdeal.Value
import proofs.«157291_j24653112279144_1_alg».proof.Proof.KernelBlock
import Idealize.ShloMosaic.Lib.Pipeline.Value
import Idealize.ShloMosaic.Lib.ValueIdx
import Idealize.ShloMosaic.Lib.StableHlo.Run

set_option maxRecDepth 16384

noncomputable section

namespace Cert.Rotation.Array

open Cert.KernelIdeal Cert.KernelIdeal.Gen Cert.Rotation
open Idealize.ShloMosaic Idealize.ShloMosaic.ValueIdx Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The phase row as the region finds it -/

/-- In front of the region the phase vector is reshaped to one row. -/
theorem phaseRow_eq (c : Dev nD) :
    (V m c main_v0 : S1x2048.Idx → EReal) = shapeCast S1x2048 (m ((c : Thread nD τ).loc main_arg2)) shapeCasts_S2048_S1x2048 := by
  dsimp only [V, hostOps0]; after_results; rfl

/-- Entry `(0, k)` of the row is entry `k` of the vector: both sit at position `k` in row-major order. -/
theorem phaseRow_apply (c : Dev nD) (k : Fin 2048) :
    (V m c main_v0 : S1x2048.Idx → EReal) (ix2 (0 : Fin 1) k) = m ((c : Thread nD τ).loc main_arg2) (ix1 k) :=
  (congrFun (phaseRow_eq m c) (ix2 (0 : Fin 1) k)).trans
    (shapeCast_apply _ shapeCasts_S2048_S1x2048 (ix2 (0 : Fin 1) k) (ix1 k) (by
      rw [Shape.rowMajor_val_one, Shape.rowMajor_val_two]
      show k.val = 0 * 2048 + k.val
      omega))

/-! ## Where each window's block sits, at every grid point -/

/-- Decided over the 64 points: the output block sits at plane 0, column 0 and at some row block below 64; both input
    blocks sit at that same row block and column 0; the phase row's block is the whole row. -/
theorem placement : ∀ t : Fin cfg0.N,
    win0_3.index t (0 : Fin 3) = 0 ∧ win0_3.index t (2 : Fin 3) = 0 ∧ win0_3.index t (1 : Fin 3) ≤ 63
    ∧ win0_0.index t (0 : Fin 2) = win0_3.index t (1 : Fin 3) ∧ win0_0.index t (1 : Fin 2) = 0
    ∧ win0_1.index t (0 : Fin 2) = win0_3.index t (1 : Fin 3) ∧ win0_1.index t (1 : Fin 2) = 0
    ∧ win0_2.index t (0 : Fin 2) = 0 ∧ win0_2.index t (1 : Fin 2) = 0 :=
  (by decide +kernel : ∀ t : Fin grid0.N, _)

/-- Every one of the 64 row blocks is some point's. -/
theorem every_rowBlock : ∀ q : Fin 64, ∃ t : Fin cfg0.N, win0_3.index t (1 : Fin 3) = q.val :=
  (by decide +kernel : ∀ q : Fin 64, ∃ t : Fin grid0.N, win0_3.index t (1 : Fin 3) = q.val)

/-! ## The input blocks, read through the arrays -/

/-- Entry `(r, k)` of the first input's block at point `t` is entry `(R, k)` of the array, `R` the row `256·(row block) + r`. -/
theorem xr_block (c : Dev nD) (t : Fin cfg0.N) (r : Fin 256) (k : Fin 2048) (R : Fin 16384)
    (hR : R.val = win0_0.index t (0 : Fin 2) * 256 + r.val) (h1 : win0_0.index t (1 : Fin 2) = 0) :
    (iblk m c 0 t : S256x2048.Idx → EReal) (ix2 r k) = m ((c : Thread nD τ).loc main_arg0) (ix2 R k) := by
  show V m c main_arg0 (((cfg0.win 0).blk t).view.emb (ix2 r k)) = _
  refine (congrFun (V_main_arg0 m c) _).trans (congrArg (m ((c : Thread nD τ).loc main_arg0)) (funext fun a => Fin.ext ?_))
  match a with
  | ⟨0, _⟩ => show win0_0.index t (0 : Fin 2) * 256 + 1 * r.val = R.val; omega
  | ⟨1, _⟩ => show win0_0.index t (1 : Fin 2) * 2048 + 1 * k.val = k.val; omega

/-- The same for the second input. -/
theorem xi_block (c : Dev nD) (t : Fin cfg0.N) (r : Fin 256) (k : Fin 2048) (R : Fin 16384)
    (hR : R.val = win0_1.index t (0 : Fin 2) * 256 + r.val) (h1 : win0_1.index t (1 : Fin 2) = 0) :
    (iblk m c 1 t : S256x2048.Idx → EReal) (ix2 r k) = m ((c : Thread nD τ).loc main_arg1) (ix2 R k) := by
  show V m c main_arg1 (((cfg0.win 1).blk t).view.emb (ix2 r k)) = _
  refine (congrFun (V_main_arg1 m c) _).trans (congrArg (m ((c : Thread nD τ).loc main_arg1)) (funext fun a => Fin.ext ?_))
  match a with
  | ⟨0, _⟩ => show win0_1.index t (0 : Fin 2) * 256 + 1 * r.val = R.val; omega
  | ⟨1, _⟩ => show win0_1.index t (1 : Fin 2) * 2048 + 1 * k.val = k.val; omega

/-- Entry `(0, k)` of the staged phase row is entry `k` of the phase vector. -/
theorem ph_block (c : Dev nD) (t : Fin cfg0.N) (k : Fin 2048)
    (h0 : win0_2.index t (0 : Fin 2) = 0) (h1 : win0_2.index t (1 : Fin 2) = 0) :
    (iblk m c 2 t : S1x2048.Idx → EReal) (ix2 (0 : Fin 1) k) = m ((c : Thread nD τ).loc main_arg2) (ix1 k) := by
  show (V m c main_v0 : S1x2048.Idx → EReal) (((cfg0.win 2).blk t).view.emb (ix2 (0 : Fin 1) k)) = _
  refine (congrArg (V m c main_v0 : S1x2048.Idx → EReal) (funext fun a => Fin.ext ?_)).trans (phaseRow_apply m c k)
  match a with
  | ⟨0, _⟩ => show win0_2.index t (0 : Fin 2) * 1 + 1 * 0 = 0; omega
  | ⟨1, _⟩ => show win0_2.index t (1 : Fin 2) * 2048 + 1 * k.val = k.val; omega

/-! ## What a point writes back -/

/-- The rotated block of point `t`'s input blocks, at an index `j` of the block, is the rotated ARRAY at the place the block's
    index `j` has in the array. -/
theorem block_read (c : Dev nD) (t : Fin cfg0.N) (j : S2x256x2048.Idx) :
    rotatedBlock (iblk m c 0 t) (iblk m c 1 t) (iblk m c 2 t) j
      = rotated (m ((c : Thread nD τ).loc main_arg0)) (m ((c : Thread nD τ).loc main_arg1)) (m ((c : Thread nD τ).loc main_arg2))
          (((cfg0.win 3).blk t).view.emb j) := by
  obtain ⟨h, r, k, rfl⟩ : ∃ (h : Fin 2) (r : Fin 256) (k : Fin 2048), j = ix3 h r k := ⟨j 0, j 1, j 2, eq_ix3 j⟩
  obtain ⟨e0, e2, hb, a0, a1, b0, b1, p0, p1⟩ := placement t
  have hr : r.val < 256 := r.isLt
  have hR : win0_3.index t (1 : Fin 3) * 256 + r.val < 16384 := by omega
  have hh : h.val = 0 ∨ h.val = 1 := by have := h.isLt; omega
  rcases hh with hh | hh
  · rw [rotatedBlock_of_plane0 _ _ _ (ix3 h r k) r k hh rfl rfl,
      rotated_of_plane0 _ _ _ _ ⟨win0_3.index t (1 : Fin 3) * 256 + r.val, hR⟩ k
        (show win0_3.index t (0 : Fin 3) * 2 + 1 * h.val = 0 by omega)
        (show win0_3.index t (1 : Fin 3) * 256 + 1 * r.val = win0_3.index t (1 : Fin 3) * 256 + r.val by omega)
        (show win0_3.index t (2 : Fin 3) * 2048 + 1 * k.val = k.val by omega),
      xr_block m c t r k ⟨win0_3.index t (1 : Fin 3) * 256 + r.val, hR⟩
        (show win0_3.index t (1 : Fin 3) * 256 + r.val = win0_0.index t (0 : Fin 2) * 256 + r.val by rw [a0]) a1,
      xi_block m c t r k ⟨win0_3.index t (1 : Fin 3) * 256 + r.val, hR⟩
        (show win0_3.index t (1 : Fin 3) * 256 + r.val = win0_1.index t (0 : Fin 2) * 256 + r.val by rw [b0]) b1,
      ph_block m c t k p0 p1]
  · rw [rotatedBlock_of_plane1 _ _ _ (ix3 h r k) r k hh rfl rfl,
      rotated_of_plane1 _ _ _ _ ⟨win0_3.index t (1 : Fin 3) * 256 + r.val, hR⟩ k
        (show win0_3.index t (0 : Fin 3) * 2 + 1 * h.val = 1 by omega)
        (show win0_3.index t (1 : Fin 3) * 256 + 1 * r.val = win0_3.index t (1 : Fin 3) * 256 + r.val by omega)
        (show win0_3.index t (2 : Fin 3) * 2048 + 1 * k.val = k.val by omega),
      xr_block m c t r k ⟨win0_3.index t (1 : Fin 3) * 256 + r.val, hR⟩
        (show win0_3.index t (1 : Fin 3) * 256 + r.val = win0_0.index t (0 : Fin 2) * 256 + r.val by rw [a0]) a1,
      xi_block m c t r k ⟨win0_3.index t (1 : Fin 3) * 256 + r.val, hR⟩
        (show win0_3.index t (1 : Fin 3) * 256 + r.val = win0_1.index t (0 : Fin 2) * 256 + r.val by rw [b0]) b1,
      ph_block m c t k p0 p1]

/-- WHAT POINT `t` WRITES BACK is block `t` of the rotated array. -/
theorem flushed_eq (c : Dev nD) (t : Fin cfg0.N) :
    (dats m 0 c).flushed 3 t = ((cfg0.win 3).blk t).view.read (Elt Ideal)
      (rotated (m ((c : Thread nD τ).loc main_arg0)) (m ((c : Thread nD τ).loc main_arg1)) (m ((c : Thread nD τ).loc main_arg2))) := by
  rw [Cert.KernelIdeal.Value.flushed3 m c t, Body.out_eq (iblk m c 0 t) (iblk m c 1 t) (iblk m c 2 t)]
  funext j
  exact block_read m c t j

/-! ## The blocks cover the array -/

/-- An index of the result is in point `t`'s block iff each coordinate is in the block's range on its axis. -/
theorem mem_block (t : Fin cfg0.N) (i : S2x16384x2048.Idx) :
    i ∈ ((cfg0.win 3).blk t).view.set ↔ ∀ a : Fin 3, win0_3.index t a * S2x256x2048.size a ≤ (i a).val
      ∧ (i a).val < win0_3.index t a * S2x256x2048.size a + S2x256x2048.size a := by
  show i ∈ ((View.whole main_v1).slice (win0_3.rect t)).set ↔ _
  rw [View.set_slice_whole, Rect.mem_set_unit]
  exact Iff.rfl

/-- Every index of the result lies in the block of the point whose row block is `row / 256`. -/
theorem covered (i : S2x16384x2048.Idx) :
    ∃ t : Fin cfg0.N, (cfg0.win 3).flush t = true ∧ i ∈ ((cfg0.win 3).blk t).view.set := by
  have hi0 : (i 0).val < 2 := (i 0).isLt
  have hi1 : (i 1).val < 16384 := (i 1).isLt
  have hi2 : (i 2).val < 2048 := (i 2).isLt
  obtain ⟨t, ht⟩ := every_rowBlock ⟨(i 1).val / 256, by omega⟩
  have ht' : win0_3.index t (1 : Fin 3) = (i 1).val / 256 := ht
  obtain ⟨e0, e2, -⟩ := placement t
  refine ⟨t, flush0_3 t, ?_⟩
  rw [mem_block]
  intro a
  match a with
  | ⟨0, _⟩ =>
    show win0_3.index t (0 : Fin 3) * 2 ≤ (i 0).val ∧ (i 0).val < win0_3.index t (0 : Fin 3) * 2 + 2
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 2048 ≤ (i 2).val ∧ (i 2).val < win0_3.index t (2 : Fin 3) * 2048 + 2048
    omega

/-! ## The array after the run -/

/-- THE RESULT ARRAY after the run is the rotated array. -/
theorem final (c : Dev nD) :
    (dats m 0 c).arrAt 3 cfg0.N
      = rotated (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel's program terminates with the result at the rotated array and the arguments
    unchanged. -/
theorem run : θ_run defs (onTc (τ := τ) (main (F := Ideal))) ⟨m, fun _ => 0, ρ⟩ fun r => ∀ c : Dev nD,
      r.2.mem ((c : Thread nD τ).loc main_v1)
        = rotated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Rotation.Array

end
-- ==== Proof.Reference.lean ====
/-
  The reference's result is the rotation.

  The reference takes the cosine and the sine of the phase vector, spreads each over all rows, forms `xr·cos − xi·sin` and
  `xr·sin + xi·cos` as two matrices, and lays the first on plane 0 and the second on plane 1 of the result.  Read at an index
  `(h, r, k)`: the plane `h` picks the matrix, and every spreading step only forgets coordinates, so the matrix entry
  `(r, k)` is built from the input entries `(r, k)` and the phase `k`.
-/
import proofs.«157291_j24653112279144_1_alg».proof.Proof.Gen.ReferenceIdeal.Read
import proofs.«157291_j24653112279144_1_alg».proof.Proof.Rotation
import Idealize.ShloMosaic.Lib.Pipeline.Value
import Idealize.ShloMosaic.Lib.ValueIdx

set_option maxRecDepth 16384

noncomputable section

namespace Cert.Rotation.Host

open Cert.ReferenceIdeal Cert.ReferenceIdeal.Read Cert.Rotation
open Cert.ReferenceIdeal.Facts₀ Cert.ReferenceIdeal.Facts
open Idealize.ShloMosaic Idealize.ShloMosaic.ValueIdx

/-! ## Where each spreading step reads its operand -/

/-- A matrix laid as one plane: `(0, r, k)` comes from `(r, k)`. -/
theorem plane_from0 (r : Fin 16384) (k : Fin 2048) : idx_main_v16 (ix3 (0 : Fin 1) r k) = ix2 r k := funext fun a => by
  match a with
  | ⟨0, _⟩ => rfl
  | ⟨1, _⟩ => rfl
theorem plane_from1 (r : Fin 16384) (k : Fin 2048) : idx_main_v17 (ix3 (0 : Fin 1) r k) = ix2 r k := funext fun a => by
  match a with
  | ⟨0, _⟩ => rfl
  | ⟨1, _⟩ => rfl

/-- A vector spread to a row and the row spread over all rows: `(r, k)` comes from `k`. -/
theorem col_a (r : Fin 16384) (k : Fin 2048) : idx_main_v2 (idx_main_v3 (ix2 r k)) = ix1 k := funext fun a => by
  match a with
  | ⟨0, _⟩ => rfl
theorem col_b (r : Fin 16384) (k : Fin 2048) : idx_main_v5 (idx_main_v6 (ix2 r k)) = ix1 k := funext fun a => by
  match a with
  | ⟨0, _⟩ => rfl
theorem col_c (r : Fin 16384) (k : Fin 2048) : idx_main_v9 (idx_main_v10 (ix2 r k)) = ix1 k := funext fun a => by
  match a with
  | ⟨0, _⟩ => rfl
theorem col_d (r : Fin 16384) (k : Fin 2048) : idx_main_v12 (idx_main_v13 (ix2 r k)) = ix1 k := funext fun a => by
  match a with
  | ⟨0, _⟩ => rfl

/-! ## The two matrices, entry by entry -/

/-- The matrix laid on plane 0 holds the real part. -/
theorem real_entry (x0 x1 : (⟨S16384x2048, .f32⟩ : BufTy).Contents (Elt Ideal)) (x2 : (⟨S2048, .f32⟩ : BufTy).Contents (Elt Ideal))
    (r : Fin 16384) (k : Fin 2048) :
    val_main_v8 (F := Ideal) x0 x1 x2 (ix2 r k) = re (x0 (ix2 r k)) (x1 (ix2 r k)) (x2 (ix1 k)) := by
  rw [val_main_v8_apply, val_main_v4_apply, val_main_v7_apply, val_main_v3_apply, val_main_v2_apply, val_main_v0_apply,
    val_main_v6_apply, val_main_v5_apply, val_main_v1_apply, col_a, col_b]
  rfl

/-- The matrix laid on plane 1 holds the imaginary part. -/
theorem imag_entry (x0 x1 : (⟨S16384x2048, .f32⟩ : BufTy).Contents (Elt Ideal)) (x2 : (⟨S2048, .f32⟩ : BufTy).Contents (Elt Ideal))
    (r : Fin 16384) (k : Fin 2048) :
    val_main_v15 (F := Ideal) x0 x1 x2 (ix2 r k) = im (x0 (ix2 r k)) (x1 (ix2 r k)) (x2 (ix1 k)) := by
  rw [val_main_v15_apply, val_main_v11_apply, val_main_v14_apply, val_main_v10_apply, val_main_v9_apply, val_main_v1_apply,
    val_main_v13_apply, val_main_v12_apply, val_main_v0_apply, col_c, col_d]
  rfl

/-! ## The two planes joined -/

/-- THE REFERENCE'S RESULT is the rotated array: on plane 0 the joined array reads its first piece, on plane 1 its second,
    each at `(0, r, k)`. -/
theorem result_eq (x0 x1 : (⟨S16384x2048, .f32⟩ : BufTy).Contents (Elt Ideal)) (x2 : (⟨S2048, .f32⟩ : BufTy).Contents (Elt Ideal)) :
    val_main_v18 (F := Ideal) x0 x1 x2 = rotated x0 x1 x2 := by
  funext i
  obtain ⟨h, r, k, rfl⟩ : ∃ (h : Fin 2) (r : Fin 16384) (k : Fin 2048), i = ix3 h r k := ⟨i 0, i 1, i 2, eq_ix3 i⟩
  unfold val_main_v18
  match h with
  | ⟨0, _⟩ =>
    refine (concatenate_pair_apply_left (t := S2x16384x2048) (s₁ := S1x16384x2048) (s₂ := S1x16384x2048) (0 : Fin 3) _ _ concatenates_S1x16384x2048_S1x16384x2048_S2x16384x2048_d0
      (ix3 (0 : Fin 2) r k) rfl (ix3 (0 : Fin 1) r k) (fun b => by
        match b with
        | ⟨0, _⟩ => rfl
        | ⟨1, _⟩ => rfl
        | ⟨2, _⟩ => rfl)).trans ?_
    rw [val_main_v16_apply, plane_from0, real_entry]
    exact (rotated_plane0 x0 x1 x2 r k).symm
  | ⟨1, _⟩ =>
    refine (concatenate_pair_apply_right (t := S2x16384x2048) (s₁ := S1x16384x2048) (s₂ := S1x16384x2048) (0 : Fin 3) _ _ concatenates_S1x16384x2048_S1x16384x2048_S2x16384x2048_d0
      (ix3 (1 : Fin 2) r k) rfl rfl (ix3 (0 : Fin 1) r k) (fun b hb => by
        match b with
        | ⟨0, _⟩ => exact absurd rfl hb
        | ⟨1, _⟩ => rfl
        | ⟨2, _⟩ => rfl) rfl).trans ?_
    rw [val_main_v17_apply, plane_from1, imag_entry]
    exact (rotated_plane1 x0 x1 x2 r k).symm

end Cert.Rotation.Host

end
-- ==== Proof.lean ====
/-
  A complex array `xr + i·xi` (16384 rows, 2048 columns) is rotated column by column by the phases `p`: the result holds
  `xr·cos p − xi·sin p` on plane 0 and `xr·sin p + xi·cos p` on plane 1.

  The kernel does this 256 rows at a time, taking the cosine and the sine of the phase row inside every grid step; the
  reference takes them once, spreads them over all rows and joins the two planes.  Read with exact arithmetic on the extended
  reals, the cosine and the sine are the same functions on both sides, and both sides form the same two products and the
  same difference or sum, in the same order: entry by entry the two results are the same term, so no algebraic law and no
  finiteness of the inputs is used.

  `Rotation` states the rotated array (and one block of it) as a function of the inputs; `KernelBlock` shows that the kernel
  body leaves the rotated block in its output buffer; `KernelArray` places the blocks in the array and shows they cover it;
  `Reference` reads the reference's operations at an index.  Below, the five claims.
-/
import proofs.«157291_j24653112279144_1_alg».proof.Defs
import proofs.«157291_j24653112279144_1_alg».proof.Proof.Gen.Kernel
import proofs.«157291_j24653112279144_1_alg».proof.Proof.Gen.Kernel.Skeleton
import proofs.«157291_j24653112279144_1_alg».proof.Proof.Gen.Kernel.Launch
import proofs.«157291_j24653112279144_1_alg».proof.Proof.Gen.Kernel.Points
import proofs.«157291_j24653112279144_1_alg».proof.Proof.Gen.Kernel.Frame
import proofs.«157291_j24653112279144_1_alg».proof.Proof.Gen.KernelIdeal
import proofs.«157291_j24653112279144_1_alg».proof.Proof.Gen.KernelIdeal.Skeleton
import proofs.«157291_j24653112279144_1_alg».proof.Proof.Gen.KernelIdeal.Launch
import proofs.«157291_j24653112279144_1_alg».proof.Proof.Gen.KernelIdeal.Points
import proofs.«157291_j24653112279144_1_alg».proof.Proof.Gen.KernelIdeal.Frame
import proofs.«157291_j24653112279144_1_alg».proof.Proof.Gen.ReferenceIdeal
import proofs.«157291_j24653112279144_1_alg».proof.Proof.Gen.Pre_finite_inputs
import proofs.«157291_j24653112279144_1_alg».proof.Proof.Gen.KernelIdeal.Value
import proofs.«157291_j24653112279144_1_alg».proof.Proof.Gen.ReferenceIdeal.Run
import proofs.«157291_j24653112279144_1_alg».proof.Proof.Gen.ReferenceIdeal.Read
import proofs.«157291_j24653112279144_1_alg».proof.Proof.KernelArray
import proofs.«157291_j24653112279144_1_alg».proof.Proof.Reference
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read with exact arithmetic. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel with exact arithmetic rewrote none of its operations. -/
theorem preserves : Cert.preserves_Kernel_KernelIdeal := trivial

/-- From inputs that agree, the kernel's result array and the reference's are both the rotated array. -/
theorem algebraic : Cert.algebraic_KernelIdeal_ReferenceIdeal := by
  intro m ρ m' ρ' _ hagree
  refine ⟨_, Cert.Rotation.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Rotation.Host.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
